-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S256x512 : Shape := ⟨2, ![256, 512]⟩
abbrev S512x4096 : Shape := ⟨2, ![512, 4096]⟩
abbrev S256x4096 : Shape := ⟨2, ![256, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S256x512, .f32⟩
  | .local _ .vmem, ⟨1, _⟩ => ⟨S256x512, .f32⟩
  | .local _ .vmem, ⟨2, _⟩ => ⟨S512x4096, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x4096.size a
  hwx0_0 : ∀ i : grid0.Coords, EltTy.bits .f32 = 32 ∨ (Rect.block (s := S8192x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BlockedProduct.lean ====
/-
  A matrix product with the contracted axis cut into consecutive stretches.

  For `a` of 8192 × 4096 and `h` of 4096 × 4096 over the extended reals, entry `(i, n)` of the product is
  `∑ k < 4096, a i k * h k n`.  Adding up the contracted index stretch by stretch — first `k < 512`, then
  `512 ≤ k < 1024`, and so on — reaches the same sum after the eighth stretch: a sum over `k < K + L` is the sum over
  `k < K` plus the sum of the next `L` terms, which only uses that addition on the extended reals is commutative and
  associative (no term is moved across a product, so nothing here needs the entries to be finite).

  To keep every partial sum a plain sum over a range of naturals, both matrices are read through their extension by
  zero to all pairs of naturals; inside the ranges met below the extension is the matrix itself.
-/
import Idealize.ShloMosaic.PureOps.Ideal
import Idealize.ShloMosaic.Lib.ValueIdx
import Mathlib.Algebra.BigOperators.Group.Finset.Basic
import Mathlib.Algebra.BigOperators.Fin

noncomputable section

namespace Cert.BlockedProduct

open Idealize.ShloMosaic Idealize.ShloMosaic.ValueIdx

/-- The left matrix read at a pair of naturals: its entry inside 8192 × 4096, zero outside. -/
def leftAt (a : (⟨2, ![8192, 4096]⟩ : Shape).Idx → EReal) (i k : ℕ) : EReal :=
  if h : i < 8192 ∧ k < 4096 then a (ix2 ⟨i, h.1⟩ ⟨k, h.2⟩) else 0

/-- The right matrix read at a pair of naturals: its entry inside 4096 × 4096, zero outside. -/
def rightAt (h : (⟨2, ![4096, 4096]⟩ : Shape).Idx → EReal) (k n : ℕ) : EReal :=
  if hh : k < 4096 ∧ n < 4096 then h (ix2 ⟨k, hh.1⟩ ⟨n, hh.2⟩) else 0

theorem leftAt_of_lt (a : (⟨2, ![8192, 4096]⟩ : Shape).Idx → EReal) (i : Fin 8192) (k : Fin 4096) :
    leftAt a i.val k.val = a (ix2 i k) := by
  unfold leftAt; rw [dif_pos ⟨i.isLt, k.isLt⟩]

theorem rightAt_of_lt (h : (⟨2, ![4096, 4096]⟩ : Shape).Idx → EReal) (k : Fin 4096) (n : Fin 4096) :
    rightAt h k.val n.val = h (ix2 k n) := by
  unfold rightAt; rw [dif_pos ⟨k.isLt, n.isLt⟩]

/-- Entry `(i, n)` of the product with the contracted index restricted to `k < K`. -/
def partialProduct (a : (⟨2, ![8192, 4096]⟩ : Shape).Idx → EReal) (h : (⟨2, ![4096, 4096]⟩ : Shape).Idx → EReal)
    (K i n : ℕ) : EReal :=
  ∑ k ∈ Finset.range K, leftAt a i k * rightAt h k n

/-- One more stretch of `L` contracted indices: the partial product over `k < K + L` is the one over `k < K` plus the
    products at `K, K + 1, …, K + L - 1`. -/
theorem partialProduct_add (a : (⟨2, ![8192, 4096]⟩ : Shape).Idx → EReal) (h : (⟨2, ![4096, 4096]⟩ : Shape).Idx → EReal)
    (K L i n : ℕ) :
    partialProduct a h (K + L) i n
      = partialProduct a h K i n + ∑ k ∈ Finset.range L, leftAt a i (K + k) * rightAt h (K + k) n :=
  Finset.sum_range_add _ K L

/-- Nothing contracted yet: the empty sum. -/
theorem partialProduct_zero (a : (⟨2, ![8192, 4096]⟩ : Shape).Idx → EReal) (h : (⟨2, ![4096, 4096]⟩ : Shape).Idx → EReal)
    (i n : ℕ) : partialProduct a h 0 i n = 0 :=
  Finset.sum_range_zero _

/-- The first stretch of 512 contracted indices alone. -/
theorem partialProduct_first_stretch (a : (⟨2, ![8192, 4096]⟩ : Shape).Idx → EReal) (h : (⟨2, ![4096, 4096]⟩ : Shape).Idx → EReal)
    (i n : ℕ) :
    partialProduct a h (512 * (0 + 1)) i n
      = ∑ k ∈ Finset.range 512, leftAt a i (512 * 0 + k) * rightAt h (512 * 0 + k) n := by
  rw [show 512 * (0 + 1) = 0 + 512 from rfl, partialProduct_add, partialProduct_zero, zero_add]

/-- Stretch `j + 1` on top of stretches `0 … j`: the contracted indices `512 * (j + 1) … 512 * (j + 1) + 511` join. -/
theorem partialProduct_next_stretch (a : (⟨2, ![8192, 4096]⟩ : Shape).Idx → EReal) (h : (⟨2, ![4096, 4096]⟩ : Shape).Idx → EReal)
    (j i n : ℕ) :
    partialProduct a h (512 * (j + 1 + 1)) i n
      = partialProduct a h (512 * (j + 1)) i n
        + ∑ k ∈ Finset.range 512, leftAt a i (512 * (j + 1) + k) * rightAt h (512 * (j + 1) + k) n := by
  rw [show 512 * (j + 1 + 1) = 512 * (j + 1) + 512 from by omega, partialProduct_add]

/-- The whole product, entry by entry: `∑ k, a i k * h k n`. -/
def product (a : (⟨2, ![8192, 4096]⟩ : Shape).Idx → EReal) (h : (⟨2, ![4096, 4096]⟩ : Shape).Idx → EReal) :
    (⟨2, ![8192, 4096]⟩ : Shape).Idx → EReal :=
  fun i => ∑ k : Fin 4096, a (ix2 (i 0) k) * h (ix2 k (i 1))

/-- With all 4096 contracted indices in, the partial product is the product's entry. -/
theorem partialProduct_full (a : (⟨2, ![8192, 4096]⟩ : Shape).Idx → EReal) (h : (⟨2, ![4096, 4096]⟩ : Shape).Idx → EReal)
    (i : Fin 8192) (n : Fin 4096) :
    partialProduct a h 4096 i.val n.val = product a h (ix2 i n) := by
  unfold partialProduct product
  rw [Finset.sum_range]
  exact Finset.sum_congr rfl fun k _ => by rw [leftAt_of_lt, rightAt_of_lt]

end Cert.BlockedProduct

end
-- ==== Proof.TileStep.lean ====
/-
  What one grid point's body computes, entry by entry, on the extended reals.

  The body multiplies a 256 × 512 tile of the left matrix by a 512 × 4096 tile of the right matrix and adds the result
  to the 256 × 4096 accumulator.  Read as exact arithmetic the narrowing of the left tile to a 16-bit format is the
  identity, and the matrix unit, started from a zero accumulator, returns the plain sum of the 512 products.  So entry
  `(r, n)` of the accumulator after the step is its entry before the step plus `∑ k < 512, x r k * y k n`; and the value
  written at the first step of a row tile, where the accumulator has just been cleared, starts from zero.
-/
import proofs.«119353_j90340342104906_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.TileStep

open Cert.KernelIdeal Cert.KernelIdeal.Gen Idealize.ShloMosaic Idealize.ShloMosaic.ValueIdx

/-! ## The tile product's operand indices, axis by axis

  The product contracts the left tile's axis 1 with the right tile's axis 0; the output's row is the left tile's row and
  the output's column the right tile's column. -/

theorem left_row (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem left_contracted (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem right_contracted (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem right_column (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The tile product from a zero accumulator: entry `(r, n)` is `∑ k < 512, x r k * y k n`. -/
theorem tile_product_apply (x : FVec Ideal S256x512 .bf16) (y : FVec Ideal S512x4096 .bf16) (r : Fin 256) (n : Fin 4096) :
    matmul dot_S256x512_S512x4096_S256x4096_1_0_0_1_n_n none x y (constant S256x4096 .f32 0x00000000#32) (ix2 r n)
      = ∑ k : Fin 512, x (ix2 r k) * y (ix2 k n) := by
  simp only [matmul]
  rw [Ideal.matmul_constant_zero_apply, ← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 r n) ((contrEquiv1 dot_S256x512_S512x4096_S256x4096_1_0_0_1_n_n 512 rfl rfl).symm k) = ix2 r k := funext fun a => Fin.ext (by
    match a with
    | ⟨0, _⟩ => exact left_row _ _
    | ⟨1, _⟩ => exact (left_contracted _ _).trans hk)
  have er : dot_S256x512_S512x4096_S256x4096_1_0_0_1_n_n.rhsIdx (ix2 r n) ((contrEquiv1 dot_S256x512_S512x4096_S256x4096_1_0_0_1_n_n 512 rfl rfl).symm k) = ix2 k n := funext fun a => Fin.ext (by
    match a with
    | ⟨0, _⟩ => exact (right_contracted _ _).trans hk
    | ⟨1, _⟩ => exact right_column _ _)
  rw [el, er]

/-- The accumulating store's value: the accumulator's entry plus the tile product's. -/
theorem accumulate_apply (x : Vec Ideal S256x512 .f32) (acc : Vec Ideal S256x4096 .f32) (y : Vec Ideal S512x4096 .bf16)
    (r : Fin 256) (n : Fin 4096) :
    k0_pay2 (F := Ideal) x acc y (ix2 r n) = acc (ix2 r n) + ∑ k : Fin 512, x (ix2 r k) * y (ix2 k n) := by
  unfold k0_pay2
  rw [shapeCast_self, shapeCast_self, addf_apply, tile_product_apply]
  rfl

/-- The clearing store's value: zero everywhere. -/
theorem cleared_apply (i : S256x4096.Idx) : k0_pay1 (F := Ideal) i = (0 : EReal) := by
  unfold k0_pay1
  rw [shapeCast_self, broadcast_apply]
  exact Ideal.ofBits_zero_f32

/-- The first step of a row tile: the accumulator was cleared, so its entry after the step is the tile product's. -/
theorem first_step_apply (x : Vec Ideal S256x512 .f32) (y : Vec Ideal S512x4096 .bf16) (r : Fin 256) (n : Fin 4096) :
    k0_pay2 (F := Ideal) x (k0_pay1 (F := Ideal)) y (ix2 r n) = ∑ k : Fin 512, x (ix2 r k) * y (ix2 k n) := by
  rw [accumulate_apply, cleared_apply, zero_add]

end Cert.KernelIdeal.TileStep

end
-- ==== Proof.StoredValues.lean ====
/-
  What the body leaves in the accumulator and in the output tile, case by case, as values.

  A grid point is the pair (row tile, stretch of the contracted axis).  The body has three courses:
  * at the first stretch it clears the accumulator and then adds the tile product to it;
  * at a middle stretch it adds the tile product to what the previous point left;
  * at the last stretch it does the same and then copies the accumulator to the output tile.
  Each store covers its whole buffer, so what a buffer holds afterwards is the value of the last store into it, and a
  load of the accumulator after a store reads that store's value.  Hence: the accumulator after the first stretch holds
  the step applied to the cleared accumulator; after any other stretch the step applied to what was there; and the
  output tile after the last stretch holds that same value.  Nothing here depends on how floats are read.
-/
import proofs.«119353_j90340342104906_1_alg».proof.Proof.Gen.KernelIdeal.Frame
import Idealize.ShloMosaic.Lib.Pipeline.Value

set_option maxRecDepth 16384

noncomputable section

namespace Cert.KernelIdeal.StoredValues

open Cert.KernelIdeal Cert.KernelIdeal.Gen Idealize.ShloMosaic Idealize.ShloMosaic.TcCoe Idealize.ShloMosaic.Tactic

variable {F : FTy → Type} [FloatOps F]

/-- Every load and store of the body is through the rectangle at the origin. -/
theorem origin : (![0, 0] : Fin 2 → Nat) = fun _ => 0 := by
  funext a; match a with | ⟨0, _⟩ => rfl | ⟨1, _⟩ => rfl

/-- First stretch: the accumulator ends at the step applied to the cleared accumulator. -/
theorem accumulator_first (c : Dev nD) (i : grid0.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : cond0_0 i) (hc1 : ¬cond0_1 i)
    (x0 : Vec F S256x512 .f32) (x1 : Vec F S512x4096 .bf16) :
    sout0_A_0 c i arg2 harg2 arg3 harg3 arg4 harg4 arg5 harg5 hc0 hc1 x0 x1 = k0_pay2 x0 (k0_pay1 (F := F)) x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x4096) origin]
  simp only [View.readAt_eq_ld, harg2.read_unread, harg3.read_unread, harg5.read_unread, View.ld_unit_zero (S := S256x512) origin, View.ld_unit_zero (S := S512x4096) origin, View.ld_unit_zero (S := S256x4096) origin, View.readCov_unit_zero (S := S256x4096) _ origin]

/-- Middle stretch: the accumulator ends at the step applied to what it held. -/
theorem accumulator_middle (c : Dev nD) (i : grid0.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0_0 i) (hc1 : ¬cond0_1 i)
    (x0 : Vec F S256x512 .f32) (x1 : Vec F S512x4096 .bf16) (xs0 : Vec F S256x4096 .f32) :
    sout0_B_0 c i arg2 harg2 arg3 harg3 arg4 harg4 arg5 harg5 hc0 hc1 x0 x1 xs0 = k0_pay2 x0 xs0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S256x4096) origin]
  simp only [View.readAt_eq_ld, harg2.read_unread, harg3.read_unread, harg5.read_unread, View.ld_unit_zero (S := S256x512) origin, View.ld_unit_zero (S := S512x4096) origin, View.ld_unit_zero (S := S256x4096) origin, View.readCov_unit_zero (S := S256x4096) _ origin]

/-- Last stretch: the accumulator ends at the step applied to what it held, -/
theorem accumulator_last (c : Dev nD) (i : grid0.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0_0 i) (hc1 : cond0_1 i)
    (x0 : Vec F S256x512 .f32) (x1 : Vec F S512x4096 .bf16) (xs0 : Vec F S256x4096 .f32) :
    sout0_C_0 c i arg2 harg2 arg3 harg3 arg4 harg4 arg5 harg5 hc0 hc1 x0 x1 xs0 = k0_pay2 x0 xs0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S256x4096) origin]
  simp only [View.readAt_eq_ld, harg2.read_unread, harg3.read_unread, harg5.read_unread, View.ld_unit_zero (S := S256x512) origin, View.ld_unit_zero (S := S512x4096) origin, View.ld_unit_zero (S := S256x4096) origin, View.readCov_unit_zero (S := S256x4096) _ origin]

/-- and the output tile receives that same value. -/
theorem output_last (c : Dev nD) (i : grid0.Coords) (arg2 : Memref sig .tc .vmem S256x512 .f32) (harg2 : arg2.IsWhole) (arg3 : Memref sig .tc .vmem S512x4096 .bf16) (harg3 : arg3.IsWhole) (arg4 : Memref sig .tc .vmem S256x4096 .f32) (harg4 : arg4.IsWhole) (arg5 : Memref sig .tc .vmem S256x4096 .f32) (harg5 : arg5.IsWhole) (hc0 : ¬cond0_0 i) (hc1 : cond0_1 i)
    (x0 : Vec F S256x512 .f32) (x1 : Vec F S512x4096 .bf16) (xs0 : Vec F S256x4096 .f32) :
    out0_C_2 c i arg2 harg2 arg3 harg3 arg4 harg4 arg5 harg5 hc0 hc1 x0 x1 xs0 = k0_pay2 x0 xs0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S256x4096) origin]
  simp only [View.readAt_eq_ld, harg2.read_unread, harg3.read_unread, harg5.read_unread, View.ld_unit_zero (S := S256x512) origin, View.ld_unit_zero (S := S512x4096) origin, View.ld_unit_zero (S := S256x4096) origin, View.readCov_unit_zero (S := S256x4096) _ origin]

end Cert.KernelIdeal.StoredValues

end
-- ==== Proof.TileReads.lean ====
/-
  Which entries of the two matrices a grid point's tiles hold.

  The grid has 32 × 8 points, numbered row tile first: point `n` works on row tile `n / 8` and on stretch `n % 8` of
  the contracted axis.  Its left tile is rows `256 * (n / 8) …` and columns `512 * (n % 8) …` of the left matrix; its
  right tile is rows `512 * (n % 8) …` of the right matrix, all 4096 columns; its output tile is rows `256 * (n / 8) …`
  of the result, all columns.  A tile's entry `(r, k)` is therefore the matrix's entry at (block index × block size
  + r, block index × block size + k) on each axis.

  The right matrix reaches the kernel through a change of float format made before the launch; read as exact
  arithmetic that change is the identity, so the kernel's right operand is the second argument itself.
-/
import proofs.«119353_j90340342104906_1_alg».proof.Proof.Gen.KernelIdeal.Frame
import proofs.«119353_j90340342104906_1_alg».proof.Proof.BlockedProduct
import Idealize.ShloMosaic.Lib.Pipeline.Value
import Idealize.ShloMosaic.Lib.ValueIdx
import Idealize.ShloMosaic.Lib.StableHlo.Run

set_option maxRecDepth 16384

noncomputable section

namespace Cert.KernelIdeal.TileReads

open Cert.KernelIdeal Cert.KernelIdeal.Gen Idealize.ShloMosaic Idealize.ShloMosaic.TcCoe Idealize.ShloMosaic.ValueIdx
open Cert.BlockedProduct

variable (m : (ℓ : Loc nD τ sig) → Buf (Elt Ideal) ℓ)

/-- The left matrix as the launch finds it. -/
abbrev leftMatrix (c : Dev nD) : S8192x4096.Idx → EReal := V m c main_arg0
/-- The right matrix as the launch finds it (after the change of format). -/
abbrev rightMatrix (c : Dev nD) : S4096x4096.Idx → EReal := V m c main_v0
/-- Point `n`'s left tile. -/
abbrev leftTile (c : Dev nD) (n : ℕ) (h : n < cfg0.N) : Vec Ideal S256x512 .f32 := iblk m c 0 ⟨n, h⟩
/-- Point `n`'s right tile. -/
abbrev rightTile (c : Dev nD) (n : ℕ) (h : n < cfg0.N) : Vec Ideal S512x4096 .bf16 := iblk m c 1 ⟨n, h⟩

/-- The left matrix is the first argument. -/
theorem leftMatrix_eq (c : Dev nD) : leftMatrix m c = m ((c : Thread nD τ).loc main_arg0) := V_main_arg0 m c

/-- The right matrix is the second argument: the change of format is the identity on the extended reals. -/
theorem rightMatrix_eq (c : Dev nD) :
    rightMatrix m c = (m ((c : Thread nD τ).loc main_arg1) : S4096x4096.Idx → EReal) := by
  show (V m c main_v0 : S4096x4096.Idx → EReal) = _
  dsimp only [V, hostOps0]
  after_results
  rfl

/-! ## The block indices, over the grid -/

/-- The left window's block index at point `n`: (row tile, stretch). -/
theorem left_index : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

/-- The right window's block index at point `n`: (stretch, 0). -/
theorem right_index : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The output window's block index at point `n`: (row tile, 0). -/
theorem output_index : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-! ## The tiles' entries -/

/-- Entry `(r, k)` of point `n`'s left tile is the left matrix at row `256 * (n / 8) + r`, column `512 * (n % 8) + k`. -/
theorem leftTile_apply (c : Dev nD) (n : ℕ) (h : n < cfg0.N) (r : Fin 256) (k : Fin 512) :
    leftTile m c n h (ix2 r k) = leftAt (leftMatrix m c) (256 * (n / 8) + r.val) (512 * (n % 8) + k.val) := by
  have hN : n < 256 := lt_of_lt_of_eq h (show cfg0.N = 256 from N_0)
  have hr := r.isLt
  have hk := k.isLt
  have e : win0_0.index ⟨n, h⟩ (0 : Fin 2) = n / 8 ∧ win0_0.index ⟨n, h⟩ (1 : Fin 2) = n % 8 := left_index ⟨n, h⟩
  unfold leftAt
  rw [dif_pos ⟨by omega, by omega⟩]
  unfold leftTile iblk
  rw [View.read_apply]
  show V m c main_arg0 _ = V m c main_arg0 _
  refine congrArg _ (funext fun a => Fin.ext ?_)
  match a with
  | ⟨0, _⟩ => show win0_0.index ⟨n, h⟩ (0 : Fin 2) * 256 + 1 * r.val = 256 * (n / 8) + r.val; rw [e.1]; omega
  | ⟨1, _⟩ => show win0_0.index ⟨n, h⟩ (1 : Fin 2) * 512 + 1 * k.val = 512 * (n % 8) + k.val; rw [e.2]; omega

/-- Entry `(k, col)` of point `n`'s right tile is the right matrix at row `512 * (n % 8) + k`, column `col`. -/
theorem rightTile_apply (c : Dev nD) (n : ℕ) (h : n < cfg0.N) (k : Fin 512) (col : Fin 4096) :
    rightTile m c n h (ix2 k col) = rightAt (rightMatrix m c) (512 * (n % 8) + k.val) col.val := by
  have hN : n < 256 := lt_of_lt_of_eq h (show cfg0.N = 256 from N_0)
  have hk := k.isLt
  have hcol := col.isLt
  have e : win0_1.index ⟨n, h⟩ (0 : Fin 2) = n % 8 ∧ win0_1.index ⟨n, h⟩ (1 : Fin 2) = 0 := right_index ⟨n, h⟩
  unfold rightAt
  rw [dif_pos ⟨by omega, by omega⟩]
  unfold rightTile iblk
  rw [View.read_apply]
  show V m c main_v0 _ = V m c main_v0 _
  refine congrArg _ (funext fun a => Fin.ext ?_)
  match a with
  | ⟨0, _⟩ => show win0_1.index ⟨n, h⟩ (0 : Fin 2) * 512 + 1 * k.val = 512 * (n % 8) + k.val; rw [e.1]; omega
  | ⟨1, _⟩ => show win0_1.index ⟨n, h⟩ (1 : Fin 2) * 4096 + 1 * col.val = col.val; rw [e.2]; omega

/-- The tile product at point `n`, entry `(r, col)`, is the stretch `n % 8` of the matrix product's sum at row
    `256 * (n / 8) + r`. -/
theorem tile_product_eq_stretch (c : Dev nD) (n : ℕ) (h : n < cfg0.N) (r : Fin 256) (col : Fin 4096) :
    ∑ k : Fin 512, leftTile m c n h (ix2 r k) * rightTile m c n h (ix2 k col)
      = ∑ k ∈ Finset.range 512, leftAt (leftMatrix m c) (256 * (n / 8) + r.val) (512 * (n % 8) + k)
          * rightAt (rightMatrix m c) (512 * (n % 8) + k) col.val := by
  rw [Finset.sum_range]
  exact Finset.sum_congr rfl fun k _ => by rw [leftTile_apply, rightTile_apply]

end Cert.KernelIdeal.TileReads

end
-- ==== Proof.RunningSum.lean ====
/-
  The accumulator after every grid point, by induction along the row tile's eight stretches.

  Claim: after point `n` (row tile `n / 8`, stretch `n % 8`) entry `(r, col)` of the accumulator is the matrix product's
  entry at row `256 * (n / 8) + r`, column `col`, with the contracted index restricted to `k < 512 * (n % 8 + 1)`.
  * At the first stretch the accumulator is cleared and receives the tile product: the sum over `k < 512`.
  * At a later stretch it receives what the point before left — the same row tile's sum over `k < 512 * (n % 8)`, by
    the induction hypothesis — plus the tile product, which is the next 512 terms of the same sum.
  At the last stretch (`n % 8 = 7`) the output tile receives the accumulator: the sum over all 4096 contracted indices.
-/
import proofs.«119353_j90340342104906_1_alg».proof.Proof.Gen.KernelIdeal.Frame
import proofs.«119353_j90340342104906_1_alg».proof.Proof.BlockedProduct
import proofs.«119353_j90340342104906_1_alg».proof.Proof.TileStep
import proofs.«119353_j90340342104906_1_alg».proof.Proof.StoredValues
import proofs.«119353_j90340342104906_1_alg».proof.Proof.TileReads

set_option maxRecDepth 16384

noncomputable section

namespace Cert.KernelIdeal.RunningSum

open Cert.KernelIdeal Cert.KernelIdeal.Gen Idealize.ShloMosaic Idealize.ShloMosaic.TcCoe Idealize.ShloMosaic.ValueIdx
open Cert.BlockedProduct Cert.KernelIdeal.TileReads

variable (m : (ℓ : Loc nD τ sig) → Buf (Elt Ideal) ℓ)

/-- A first stretch: the accumulator's entry is the tile product's. -/
theorem first_stretch_apply (c : Dev nD) (n : ℕ) (h : n < cfg0.N) (h0 : n % 8 = 0) (r : Fin 256) (col : Fin 4096) :
    (outsAt0 m c n h).2 (ix2 r col)
      = ∑ k : Fin 512, leftTile m c n h (ix2 r k) * rightTile m c n h (ix2 k col) := by
  have h1 : ¬n % 8 = 7 := by omega
  rw [outsAt0_A m c ⟨n, h⟩ h0 h1]
  dsimp only
  refine (congrFun (StoredValues.accumulator_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩)) (ix2 r col)).trans ?_
  exact TileStep.first_step_apply (leftTile m c n h) (rightTile m c n h) r col

/-- A later stretch: the accumulator's entry is what the point before left plus the tile product's. -/
theorem later_stretch_apply (c : Dev nD) (n : ℕ) (h : n + 1 < cfg0.N) (h0 : ¬(n + 1) % 8 = 0) (r : Fin 256) (col : Fin 4096) :
    (outsAt0 m c (n + 1) h).2 (ix2 r col)
      = (outsAt0 m c n (Nat.lt_of_succ_lt h)).2 (ix2 r col)
        + ∑ k : Fin 512, leftTile m c (n + 1) h (ix2 r k) * rightTile m c (n + 1) h (ix2 k col) := by
  by_cases h7 : (n + 1) % 8 = 7
  · rw [outsAt0_C m c ⟨n + 1, h⟩ h0 h7]
    dsimp only
    refine (congrFun (StoredValues.accumulator_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h7) (iblk m c 0 ⟨n + 1, h⟩) (iblk m c 1 ⟨n + 1, h⟩) (outsAt0 m c n (Nat.lt_of_succ_lt h)).2) (ix2 r col)).trans ?_
    exact TileStep.accumulate_apply (leftTile m c (n + 1) h) ((outsAt0 m c n (Nat.lt_of_succ_lt h)).2) (rightTile m c (n + 1) h) r col
  · rw [outsAt0_B m c ⟨n + 1, h⟩ h0 h7]
    dsimp only
    refine (congrFun (StoredValues.accumulator_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h7 ((hcond0_1 ⟨n + 1, h⟩).mp hh)) (iblk m c 0 ⟨n + 1, h⟩) (iblk m c 1 ⟨n + 1, h⟩) (outsAt0 m c n (Nat.lt_of_succ_lt h)).2) (ix2 r col)).trans ?_
    exact TileStep.accumulate_apply (leftTile m c (n + 1) h) ((outsAt0 m c n (Nat.lt_of_succ_lt h)).2) (rightTile m c (n + 1) h) r col

/-- THE INVARIANT: the accumulator after point `n` holds the row tile's partial products over the stretches `0 … n % 8`. -/
theorem accumulator_apply (c : Dev nD) : ∀ (n : ℕ) (h : n < cfg0.N) (r : Fin 256) (col : Fin 4096),
    (outsAt0 m c n h).2 (ix2 r col)
      = partialProduct (leftMatrix m c) (rightMatrix m c) (512 * (n % 8 + 1)) (256 * (n / 8) + r.val) col.val
  | 0, h, r, col => by
    rw [first_stretch_apply m c 0 h rfl r col, tile_product_eq_stretch]
    exact (partialProduct_first_stretch _ _ _ _).symm
  | n + 1, h, r, col => by
    have hN : n + 1 < 256 := lt_of_lt_of_eq h (show cfg0.N = 256 from N_0)
    by_cases h0 : (n + 1) % 8 = 0
    · rw [first_stretch_apply m c (n + 1) h h0 r col, tile_product_eq_stretch, h0]
      exact (partialProduct_first_stretch _ _ _ _).symm
    · rw [later_stretch_apply m c n h h0 r col, accumulator_apply c n (Nat.lt_of_succ_lt h) r col, tile_product_eq_stretch]
      have e1 : (n + 1) / 8 = n / 8 := by omega
      have e2 : (n + 1) % 8 = n % 8 + 1 := by omega
      rw [e1, e2]
      exact (partialProduct_next_stretch _ _ _ _ _).symm

/-- At a last stretch the output tile receives what the accumulator holds. -/
theorem output_eq_accumulator (c : Dev nD) (n : ℕ) (h : n < cfg0.N) (h7 : n % 8 = 7) :
    (outsAt0 m c n h).1 = (outsAt0 m c n h).2 := by
  have h0 : ¬n % 8 = 0 := by omega
  rw [outsAt0_C m c ⟨n, h⟩ h0 h7]
  dsimp only
  exact (StoredValues.output_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h7) (iblk m c 0 ⟨n, h⟩) (iblk m c 1 ⟨n, h⟩) (outsAt0 m c (n - 1) (Nat.lt_of_le_of_lt (Nat.sub_le _ _) h)).2).trans
    (StoredValues.accumulator_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h7) (iblk m c 0 ⟨n, h⟩) (iblk m c 1 ⟨n, h⟩) (outsAt0 m c (n - 1) (Nat.lt_of_le_of_lt (Nat.sub_le _ _) h)).2).symm

/-- So at a last stretch the output tile's entry `(r, col)` is the matrix product's entry at row `256 * (n / 8) + r`. -/
theorem output_apply (c : Dev nD) (n : ℕ) (h : n < cfg0.N) (h7 : n % 8 = 7) (r : Fin 256) (col : Fin 4096)
    (hrow : 256 * (n / 8) + r.val < 8192) :
    (outsAt0 m c n h).1 (ix2 r col)
      = product (leftMatrix m c) (rightMatrix m c) (ix2 ⟨256 * (n / 8) + r.val, hrow⟩ col) := by
  rw [output_eq_accumulator m c n h h7, accumulator_apply m c n h r col, h7]
  exact partialProduct_full (leftMatrix m c) (rightMatrix m c) ⟨256 * (n / 8) + r.val, hrow⟩ col

end Cert.KernelIdeal.RunningSum

end
-- ==== Proof.WriteBack.lean ====
/-
  From the output tiles to the whole result.

  The output window is written back only at the last stretch of each row tile (points `n` with `n % 8 = 7`), and what
  is written is the output tile, which by then holds the finished rows `256 * (n / 8) … 256 * (n / 8) + 255` of the
  matrix product.  The 32 row tiles are disjoint and together are all 8192 rows: row `i` lies in the tile written at
  point `8 * (i / 256) + 7`.  So after the run the result array is the matrix product of the two arguments.
-/
import proofs.«119353_j90340342104906_1_alg».proof.Proof.Gen.KernelIdeal.Value
import proofs.«119353_j90340342104906_1_alg».proof.Proof.RunningSum

set_option maxRecDepth 16384

noncomputable section

namespace Cert.KernelIdeal.WriteBack

open Cert.KernelIdeal Cert.KernelIdeal.Gen Idealize.ShloMosaic Idealize.ShloMosaic.TcCoe Idealize.ShloMosaic.ValueIdx Idealize.SL.Sem
open Idealize.ShloMosaic.Pipeline (Dat)
open Cert.BlockedProduct Cert.KernelIdeal.TileReads

variable (m : (ℓ : Loc nD τ sig) → Buf (Elt Ideal) ℓ) (ρ : Dev nD → PrngReg)

/-- The output tile at a last stretch, at any index of the tile: the product's entry in row `256 * (n / 8) + (j 0)`. -/
theorem output_tile_apply (c : Dev nD) (n : ℕ) (h : n < cfg0.N) (h7 : n % 8 = 7) (j : S256x4096.Idx)
    (hrow : 256 * (n / 8) + (j 0).val < 8192) :
    (outsAt0 m c n h).1 j = product (leftMatrix m c) (rightMatrix m c) (ix2 ⟨256 * (n / 8) + (j 0).val, hrow⟩ (j 1)) := by
  obtain ⟨r, col, rfl⟩ : ∃ (r : Fin 256) (col : Fin 4096), j = ix2 r col := ⟨j 0, j 1, eq_ix2 j⟩
  exact RunningSum.output_apply m c n h h7 r col hrow

/-- WHAT A WRITE-BACK WRITES: at a point that writes the output window back, its tile is the product's block there. -/
theorem flushed_eq (c : Dev nD) (t : Fin cfg0.N) (hf : (cfg0.win 2).flush t = true) :
    (dats m 0 c).flushed 2 t
      = ((cfg0.win 2).blk t).view.read (Elt Ideal) (product (leftMatrix m c) (rightMatrix m c)) := by
  have h7 : t.val % 8 = 7 := (flush0_2 t).mp hf
  have hN : t.val < 256 := lt_of_lt_of_eq t.isLt (show cfg0.N = 256 from N_0)
  obtain ⟨e0, e1⟩ := output_index t
  rw [Value.flushed2]
  funext j
  have hj0 : (j 0).val < 256 := (j 0).isLt
  show (outsAt0 m c t.val t.isLt).1 j = product (leftMatrix m c) (rightMatrix m c) (((cfg0.win 2).blk t).view.emb j)
  refine (output_tile_apply m c t.val t.isLt h7 j (by omega)).trans ?_
  refine congrArg _ (funext fun a => Fin.ext ?_)
  match a with
  | ⟨0, _⟩ => show 256 * (t.val / 8) + (j 0).val = win0_2.index t (0 : Fin 2) * 256 + 1 * (j 0).val; rw [e0]; omega
  | ⟨1, _⟩ => show (j 1).val = win0_2.index t (1 : Fin 2) * 4096 + 1 * (j 1).val; rw [e1]; omega

/-- An index of the result is in point `t`'s block iff each coordinate is in the block's range on its axis. -/
theorem mem_block (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

/-- Every row of the result is written back: row `i` by the last stretch of row tile `i / 256`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : 8 * ((i 0).val / 256) + 7 < cfg0.N := by rw [show cfg0.N = 256 from N_0]; omega
  have e : win0_2.index ⟨8 * ((i 0).val / 256) + 7, hlt⟩ (0 : Fin 2) = (8 * ((i 0).val / 256) + 7) / 8
      ∧ win0_2.index ⟨8 * ((i 0).val / 256) + 7, hlt⟩ (1 : Fin 2) = 0 := output_index ⟨8 * ((i 0).val / 256) + 7, hlt⟩
  have hlast : (8 * ((i 0).val / 256) + 7) % 8 = 7 := by omega
  refine ⟨⟨8 * ((i 0).val / 256) + 7, hlt⟩, (flush0_2 ⟨8 * ((i 0).val / 256) + 7, hlt⟩).mpr hlast, ?_⟩
  rw [mem_block]
  intro a
  match a with
  | ⟨0, _⟩ =>
    show win0_2.index ⟨8 * ((i 0).val / 256) + 7, hlt⟩ (0 : Fin 2) * 256 ≤ (i 0).val
      ∧ (i 0).val < win0_2.index ⟨8 * ((i 0).val / 256) + 7, hlt⟩ (0 : Fin 2) * 256 + 256
    rw [e.1]; omega
  | ⟨1, _⟩ =>
    show win0_2.index ⟨8 * ((i 0).val / 256) + 7, hlt⟩ (1 : Fin 2) * 4096 ≤ (i 1).val
      ∧ (i 1).val < win0_2.index ⟨8 * ((i 0).val / 256) + 7, hlt⟩ (1 : Fin 2) * 4096 + 4096
    rw [e.2]; omega

/-- THE RESULT ARRAY after the run is the matrix product of the two matrices the launch found. -/
theorem result_eq (c : Dev nD) :
    (dats m 0 c).arrAt 2 cfg0.N = product (leftMatrix m c) (rightMatrix m c) :=
  (dats m 0 c).arrAt_eq_of_cover 2 (product (leftMatrix m c) (rightMatrix m c)) (fun t hf => flushed_eq m c t hf) covered

/-- The kernel's run, read: the result is the product of the two arguments, and the arguments are unchanged. -/
theorem run : θ_run defs (onTc (τ := τ) (main (F := Ideal))) ⟨m, fun _ => 0, ρ⟩ fun r => ∀ c : Dev nD,
      r.2.mem ((c : Thread nD τ).loc main_v1)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((result_eq m c).trans
      (congrArg₂ product (leftMatrix_eq m c) (rightMatrix_eq m c))), (h c).2⟩)
    (Value.run_blocks m ρ)

end Cert.KernelIdeal.WriteBack

end
-- ==== Proof.ReferenceProduct.lean ====
/-
  The reference computes the matrix product: its one operation contracts the left operand's axis 1 with the right
  operand's axis 0, and read as exact arithmetic its entry `(i, n)` is `∑ k, x i k * y k n` — the same function the
  kernel's result was shown to be.
-/
import proofs.«119353_j90340342104906_1_alg».proof.Proof.Gen.ReferenceIdeal.Read
import proofs.«119353_j90340342104906_1_alg».proof.Proof.BlockedProduct

noncomputable section

namespace Cert.ReferenceIdeal.RefProduct

open Cert.ReferenceIdeal Cert.ReferenceIdeal.Gen Idealize.ShloMosaic Idealize.ShloMosaic.ValueIdx
open Cert.BlockedProduct

theorem reference_eq_product (x0 : (⟨S8192x4096, .f32⟩ : BufTy).Contents (Elt Ideal)) (x1 : (⟨S4096x4096, .f32⟩ : BufTy).Contents (Elt Ideal)) :
    Read.val_main_v0 (F := Ideal) x0 x1 = product x0 x1 := by
  funext i
  rw [Read.val_main_v0_apply]
  unfold product
  refine Finset.sum_congr rfl fun k _ => ?_
  have el : Read.lidx_main_v0 i k = ix2 (i 0) k := funext fun a => by
    match a with
    | ⟨0, _⟩ => rfl
    | ⟨1, _⟩ => rfl
  have er : Read.ridx_main_v0 i k = ix2 k (i 1) := funext fun a => by
    match a with
    | ⟨0, _⟩ => rfl
    | ⟨1, _⟩ => rfl
  rw [el, er]
  rfl

end Cert.ReferenceIdeal.RefProduct

end
-- ==== Proof.lean ====
/-
  A matrix product computed tile by tile against the same product computed at once.

  The kernel multiplies an 8192 × 4096 matrix by a 4096 × 4096 matrix on a 32 × 8 grid: for each of 32 row tiles of 256
  rows it walks the contracted axis in 8 stretches of 512, adding each 256 × 512 by 512 × 4096 tile product into an
  accumulator that it clears at the first stretch and copies to the result at the last.  The reference is the one
  product `∑ k, x i k * y k n`.  Read as exact arithmetic on the extended reals the kernel's changes of float format
  are the identity, so both compute the same sum of 4096 products, the kernel in eight consecutive groups; the two
  agree because addition is associative (a sum over `k < K + L` is the sum over `k < K` plus the next `L` terms).  No
  product is distributed over a sum, so the entries need not be finite and the precondition is not used.

  The modules: BlockedProduct (the partial sums and their law), TileStep (one grid point's arithmetic at an entry),
  StoredValues (what the body's stores leave, per course of its two conditionals), TileReads (which matrix entries a
  point's tiles hold), RunningSum (the accumulator after every point, by induction along a row tile's stretches),
  WriteBack (the result array from the written-back tiles), ReferenceProduct (the reference is that product).
-/
import proofs.«119353_j90340342104906_1_alg».proof.Defs
import proofs.«119353_j90340342104906_1_alg».proof.Proof.Gen.Kernel
import proofs.«119353_j90340342104906_1_alg».proof.Proof.Gen.Kernel.Skeleton
import proofs.«119353_j90340342104906_1_alg».proof.Proof.Gen.Kernel.Launch
import proofs.«119353_j90340342104906_1_alg».proof.Proof.Gen.Kernel.Points
import proofs.«119353_j90340342104906_1_alg».proof.Proof.Gen.Kernel.Frame
import proofs.«119353_j90340342104906_1_alg».proof.Proof.Gen.KernelIdeal
import proofs.«119353_j90340342104906_1_alg».proof.Proof.Gen.KernelIdeal.Skeleton
import proofs.«119353_j90340342104906_1_alg».proof.Proof.Gen.KernelIdeal.Launch
import proofs.«119353_j90340342104906_1_alg».proof.Proof.Gen.KernelIdeal.Points
import proofs.«119353_j90340342104906_1_alg».proof.Proof.Gen.KernelIdeal.Frame
import proofs.«119353_j90340342104906_1_alg».proof.Proof.Gen.ReferenceIdeal
import proofs.«119353_j90340342104906_1_alg».proof.Proof.Gen.Pre_finite_inputs
import proofs.«119353_j90340342104906_1_alg».proof.Proof.Gen.KernelIdeal.Value
import proofs.«119353_j90340342104906_1_alg».proof.Proof.Gen.ReferenceIdeal.Run
import proofs.«119353_j90340342104906_1_alg».proof.Proof.Gen.ReferenceIdeal.Read
import proofs.«119353_j90340342104906_1_alg».proof.Proof.WriteBack
import proofs.«119353_j90340342104906_1_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read as exact arithmetic. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read as exact arithmetic. -/
theorem preserves : Cert.preserves_Kernel_KernelIdeal := trivial

/-- From arguments that agree, the kernel's result array and the reference's are both the matrix product of the
    arguments: the kernel's by the running sums over a row tile's stretches, the reference's by its one operation. -/
theorem algebraic : Cert.algebraic_KernelIdeal_ReferenceIdeal := by
  intro m ρ m' ρ' _ hagree
  refine ⟨_, Cert.KernelIdeal.WriteBack.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefProduct.reference_eq_product _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
